-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S50000x128 .f32) (main_arg1 : FVec F S128x128 .f32) (main_arg2 : FVec F S128 .f32) (main_arg3 : FVec F S800000 .f32) (main_arg4 : IVec S800000 32) (main_arg5 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S5000x128 : Shape := ⟨2, ![5000, 128]⟩
abbrev S1x128 : Shape := ⟨2, ![1, 128]⟩
abbrev S800000x1 : Shape := ⟨2, ![800000, 1]⟩
abbrev S_ : Shape := ⟨0, ![]⟩
abbrev S800000x128 : Shape := ⟨2, ![800000, 128]⟩

abbrev nBuf : Space → Nat
  | .hbm => 25
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S128x128, .f32⟩
  | .hbm, ⟨7, _⟩ => ⟨S50000x128, .f32⟩
  | .hbm, ⟨8, _⟩ => ⟨S800000x1, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S1x128 : Shape := ⟨2, ![1, 128]⟩
abbrev S800000x1 : Shape := ⟨2, ![800000, 1]⟩
abbrev S_ : Shape := ⟨0, ![]⟩
abbrev S800000x128 : Shape := ⟨2, ![800000, 128]⟩

abbrev nBuf : Space → Nat
  | .hbm => 31
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S128x128, .f32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.LibDotPlain.lean ====
/-
  A general lemma. The host's plain matrix product of an [M, K] array by a [K, N] array (the left operand contracted
  on its second axis, the right on its first, no batch axes), read at the exact instance, is at entry (p, q) the
  finite sum over the contraction coordinate k of left (p, k) · right (k, q). The host product has no accumulator, so
  nothing is added in front of the sum. It holds for all sizes, both operands' formats and any precision key.
-/
import Idealize.ShloMosaic.Lib.ValueIdx
import Idealize.ShloMosaic.PureOps.Ideal.Laws
import proofs.«143243_j37709812859405_1_alg».proof.Proof.LibMatmulPlain

namespace Idealize.ShloMosaic.DotPlain

open Idealize.ShloMosaic Idealize.ShloMosaic.ValueIdx Idealize.ShloMosaic.MatmulPlain

variable {M K N : ℕ}

/-- Entry (p, q) of the host's plain product is ∑ k, left (p, k) · right (k, q). -/
theorem dotGeneral_apply {φ₁ φ₂ : FTy} (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  show FloatOps.dotGeneral (DotDims.plain M K N) prec .single l r (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.DotPlain
-- ==== Proof.Shared.lean ====
/-
  One layer of a graph network over 50000 nodes with 128 features and 800000 weighted edges, as three
  whole-array functions shared by both programs:
    * `linear h wt b`     : the node features times the (already transposed) weight matrix, plus the bias row;
    * `aggregate x ev er ec` : for every edge e, the row `ec e` of `x` scaled by `ev e`, summed into row `er e`
                               (a negative column index counted from the end, as the host's indexing does);
    * `activate s x`      : the sum of the aggregate and the node's own row, cut off below at zero.
  The layer is `activate (aggregate y ev er ec) y` at `y = linear h wt b`. The aggregate is never opened: both
  programs apply the very same host operations to `y`, so it is carried as one function.
-/
import proofs.«143243_j37709812859405_1_alg».proof.Proof.Gen.ReferenceIdeal.Read
import proofs.«143243_j37709812859405_1_alg».proof.Proof.LibDotPlain
import Idealize.ShloMosaic.Lib.ValueIdx
import Idealize.ShloMosaic.Lib.Pipeline.Value

noncomputable section

namespace Cert.Layer

open Cert.ReferenceIdeal Cert.ReferenceIdeal.Gen Idealize.ShloMosaic Idealize.ShloMosaic.TcCoe Idealize.ShloMosaic.ValueIdx

variable {F : FTy → Type} [FloatOps F]

/-- The affine map on node features: `h · wt + b`, the bias row repeated down the nodes. -/
def linear (h : (⟨S50000x128, .f32⟩ : BufTy).Contents (Elt F)) (wt : (⟨S128x128, .f32⟩ : BufTy).Contents (Elt F))
    (b : (⟨S128, .f32⟩ : BufTy).Contents (Elt F)) : (⟨S50000x128, .f32⟩ : BufTy).Contents (Elt F) :=
  addf (Host.dotGeneral dot_S50000x128_S128x128_S50000x128_1_0_0_1_n_n none h wt)
    (broadcastInDim S50000x128 ![0, 1] bcast_S1x128_S50000x128_0_1 (broadcastInDim S1x128 ![1] bcast_S128_S1x128_1 b))

/-- The sparse aggregation: rows of `x` gathered by column index, scaled by the edge weight, summed by row index. -/
def aggregate (x : (⟨S50000x128, .f32⟩ : BufTy).Contents (Elt F)) (ev : (⟨S800000, .f32⟩ : BufTy).Contents (Elt F))
    (er ec : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 er)
    (mulf (broadcastInDim S800000x128 ![0, 1] bcast_S800000x1_S800000x128_0_1 (broadcastInDim S800000x1 ![0] bcast_S800000_S800000x1_0 ev))
      (Host.gather gather_S50000x128_S800000x1_S800000x128_1_0_n_n_0_1_1128 x
        (broadcastInDim S800000x1 ![0] bcast_S800000_S800000x1_0
          (select (cmpi .slt ec (broadcastInDim S800000 ![] bcast_S_S800000 (constantI S_ 32 0#32)))
            (addi ec (broadcastInDim S800000 ![] bcast_S_S800000 (constantI S_ 32 50000#32))) ec))))

/-- The residual sum followed by the cut-off at zero. -/
def activate (s x : (⟨S50000x128, .f32⟩ : BufTy).Contents (Elt F)) : (⟨S50000x128, .f32⟩ : BufTy).Contents (Elt F) :=
  maximumf (addf s x) (broadcastInDim S50000x128 ![] bcast_S_S50000x128 (constant S_ .f32 0x00000000#32))

/-- The whole layer from the six inputs, the weight matrix transposed first. -/
def layer (h : (⟨S50000x128, .f32⟩ : BufTy).Contents (Elt F)) (w : (⟨S128x128, .f32⟩ : BufTy).Contents (Elt F))
    (b : (⟨S128, .f32⟩ : BufTy).Contents (Elt F)) (ev : (⟨S800000, .f32⟩ : BufTy).Contents (Elt F))
    (er ec : (⟨S800000, .i32⟩ : BufTy).Contents (Elt F)) : (⟨S50000x128, .f32⟩ : BufTy).Contents (Elt F) :=
  activate (aggregate (linear h (transpose S128x128 [1, 0] w transposes_S128x128_S128x128_1_0) b) ev er ec)
    (linear h (transpose S128x128 [1, 0] w transposes_S128x128_S128x128_1_0) b)

/-- The reference's last stage is the layer. -/
theorem reference_eq (x0 : (⟨S50000x128, .f32⟩ : BufTy).Contents (Elt F)) (x1 : (⟨S128x128, .f32⟩ : BufTy).Contents (Elt F))
    (x2 : (⟨S128, .f32⟩ : BufTy).Contents (Elt F)) (x3 : (⟨S800000, .f32⟩ : BufTy).Contents (Elt F))
    (x4 x5 : (⟨S800000, .i32⟩ : BufTy).Contents (Elt F)) :
    Read.val_main_v19 (F := F) x0 x1 x2 x3 x4 x5 = layer x0 x1 x2 x3 x4 x5 := by
  rw [← Read.val_main_v19_eq]
  rfl

/-- Entry (p, q) of the affine map over the extended reals: the sum over k of h (p, k) · wt (k, q), plus b q. -/
theorem linear_apply (h : (⟨S50000x128, .f32⟩ : BufTy).Contents (Elt Ideal)) (wt : (⟨S128x128, .f32⟩ : BufTy).Contents (Elt Ideal))
    (b : (⟨S128, .f32⟩ : BufTy).Contents (Elt Ideal)) (p : Fin 50000) (q : Fin 128) :
    linear (F := Ideal) h wt b (ix2 p q) = (∑ k : Fin 128, h (ix2 p k) * wt (ix2 k q)) + b (ix1 q) := by
  unfold linear
  rw [addf_apply]
  have hd : Host.dotGeneral (F := Ideal) (φ₁ := .f32) (φ₂ := .f32) dot_S50000x128_S128x128_S50000x128_1_0_0_1_n_n none h wt (ix2 p q)
      = ∑ k : Fin 128, h (ix2 p k) * wt (ix2 k q) :=
    DotPlain.dotGeneral_apply (M := 50000) (K := 128) (N := 128) (φ₁ := .f32) (φ₂ := .f32) none h wt p q
  have hb : broadcastInDim S50000x128 ![0, 1] bcast_S1x128_S50000x128_0_1 (broadcastInDim S1x128 ![1] bcast_S128_S1x128_1 b) (ix2 p q)
      = b (ix1 q) := by
    rw [broadcastInDim_apply _ bcast_S1x128_S50000x128_0_1 _ (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])]
    exact broadcastInDim_apply _ bcast_S128_S1x128_1 b (ix2 (0 : Fin 1) q) (ix1 q) (fun a => match a with
      | ⟨0, _⟩ => by show q.val = if (128 : Nat) = 1 then 0 else q.val; rw [if_neg (by decide)])
  rw [hd, hb]

/-- An entry of the activation over the extended reals: the larger of zero and the sum of the two entries. -/
theorem activate_apply (s x : (⟨S50000x128, .f32⟩ : BufTy).Contents (Elt Ideal)) (i : S50000x128.Idx) :
    activate (F := Ideal) s x i = max (s i + x i) (Ideal.ofBits .f32 0x00000000#32) := by
  unfold activate
  rw [maximumf_apply, addf_apply,
    broadcastInDim_apply _ bcast_S_S50000x128 (constant (F := Ideal) S_ .f32 0x00000000#32) i ix0 (fun a => a.elim0)]
  rfl

end Cert.Layer

end
-- ==== Proof.Steps.lean ====
/-
  What one grid step of each kernel computes, read at an entry, over the extended reals.
  The first kernel's step takes a block of 5000 node rows, the whole 128 × 128 matrix and the bias row, and leaves at
  (p, q) the sum over k of block (p, k) · matrix (k, q), plus bias q: the narrowing to a shorter float format before
  the product is the identity on extended reals, and the accumulator starts at zero.
  The second kernel's step leaves at every entry the larger of zero and the sum of its two blocks' entries.
-/
import proofs.«143243_j37709812859405_1_alg».proof.Proof.Gen.KernelIdeal.Skeleton
import proofs.«143243_j37709812859405_1_alg».proof.Proof.LibMatmulPlain
import Idealize.ShloMosaic.Lib.ValueIdx
import Idealize.ShloMosaic.Lib.ValueLayout
import Idealize.ShloMosaic.Lib.Pipeline.Value

noncomputable section

namespace Cert.KernelIdeal.Steps

open Cert.KernelIdeal Cert.KernelIdeal.Gen Idealize.ShloMosaic Idealize.ShloMosaic.ValueIdx

/-- One step of the affine kernel at (p, q): ∑ k, x (p, k) · w (k, q), plus b q. -/
theorem affine_step_apply (x : Vec Ideal S5000x128 .f32) (w : Vec Ideal S128x128 .f32) (b : Vec Ideal S128 .f32)
    (p : Fin 5000) (q : Fin 128) :
    k0_pay1 (F := Ideal) x w b (ix2 p q) = (∑ k : Fin 128, x (ix2 p k) * w (ix2 k q)) + b (ix1 q) := by
  unfold k0_pay1
  rw [addf_apply, shapeCast_self]
  refine congrArg₂ (· + ·) ?_ ?_
  · exact MatmulPlain.matmul_zero_apply (M := 5000) (K := 128) (N := 128) (φ₁ := .bf16) (φ₂ := .bf16) none _ _ p q
  · rw [broadcastTo_1b_ab_apply, shapeCast_a_1a_apply]

/-- One step of the combining kernel at any entry: max (s + x) 0. -/
theorem combine_step_apply (s x : Vec Ideal S5000x128 .f32) (j : S5000x128.Idx) :
    k1_pay1 (F := Ideal) s x j = max (s j + x j) (Ideal.ofBits .f32 0x00000000#32) := by
  unfold k1_pay1
  rw [shapeCast_self, shapeCast_self]
  rfl

end Cert.KernelIdeal.Steps

end
-- ==== Proof.LinearArray.lean ====
/-
  The array the first kernel leaves after its ten grid steps is the affine map of the arrays it found:
  step t writes rows 5000·t … 5000·t + 4999, each entry (p, q) of that block the sum over k of
  h (5000·t + p, k) · wt (k, q), plus b q, which is entry (5000·t + p, q) of `Layer.linear h wt b`;
  the ten blocks cover all 50000 rows.
-/
import proofs.«143243_j37709812859405_1_alg».proof.Proof.Gen.KernelIdeal.Frame
import proofs.«143243_j37709812859405_1_alg».proof.Proof.Steps
import proofs.«143243_j37709812859405_1_alg».proof.Proof.Shared

set_option maxRecDepth 16384

noncomputable section

namespace Cert.KernelIdeal.LinearArray

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The arrays the region finds, and the blocks a step reads, at their literal types. -/
abbrev harr (c : Dev nD) : Vec Ideal S50000x128 .f32 := V c main_arg0
abbrev warr (c : Dev nD) : Vec Ideal S128x128 .f32 := V c main_v0
abbrev barr (c : Dev nD) : Vec Ideal S128 .f32 := V c main_arg2
abbrev hblk (c : Dev nD) (t : Fin cfg0.N) : Vec Ideal S5000x128 .f32 := iblk0 V c 0 t
abbrev wblk (c : Dev nD) (t : Fin cfg0.N) : Vec Ideal S128x128 .f32 := iblk0 V c 1 t
abbrev bblk (c : Dev nD) (t : Fin cfg0.N) : Vec Ideal S128 .f32 := iblk0 V c 2 t

/-- The block indices over the grid: the row-blocked windows sit at block t, the whole-array windows at block 0. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of step t's node block is row 5000·t + p of the node array. -/
theorem hblk_apply (c : Dev nD) (t : Fin cfg0.N) (p : Fin 5000) (k : Fin 128) (hp : t.val * 5000 + p.val < 50000) :
    hblk V c t (ix2 p k) = harr V c (ix2 ⟨t.val * 5000 + p.val, hp⟩ k) := by
  obtain ⟨e0, e1, -, -, -, -, -⟩ := block_index t
  show V c main_arg0 (((cfg0.win 0).blk t).view.emb (ix2 p k)) = V c main_arg0 (ix2 ⟨t.val * 5000 + p.val, hp⟩ k)
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The matrix window's one block is the whole matrix. -/
theorem wblk_eq (c : Dev nD) (t : Fin cfg0.N) : wblk V c t = warr V c := by
  obtain ⟨-, -, e2, e3, -, -, -⟩ := block_index t
  funext j
  show V c main_v0 (((cfg0.win 1).blk t).view.emb j) = V c main_v0 j
  refine congrArg (V c main_v0) (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The bias window's one block is the whole bias row. -/
theorem bblk_eq (c : Dev nD) (t : Fin cfg0.N) : bblk V c t = barr V c := by
  obtain ⟨-, -, -, -, e4, -, -⟩ := block_index t
  funext j
  show V c main_arg2 (((cfg0.win 2).blk t).view.emb j) = V c main_arg2 j
  refine congrArg (V c main_arg2) (funext fun a => Fin.ext ?_)
  match a with
  | ⟨0, _⟩ => show win0_2.index t (0 : Fin 1) * 128 + 1 * (j 0).val = (j 0).val; omega

/-- What step t writes back is block t of the affine map of the arrays the region found. -/
theorem flushed_eq (c : Dev nD) (t : Fin cfg0.N) :
    (dat0 V c).flushed 3 t = ((cfg0.win 3).blk t).view.read (Elt Ideal) (Layer.linear (harr V c) (warr V c) (barr V c)) := by
  show (cfg0.win 3).cut (grid0.coords t) ((dat0 V c).after 3 t) = _
  rw [after0_3]
  unfold out0_3
  rw [View.canon_unit_zero zero2]
  simp only [View.ld_unit_zero (S := S5000x128) zero2, View.ld_unit_zero (S := S128x128) zero2, View.ld_unit_zero (S := S128) zero1]
  obtain ⟨-, -, -, -, -, e5, e6⟩ := block_index t
  funext j
  obtain ⟨p, q, rfl⟩ : ∃ (p : Fin 5000) (q : Fin 128), j = ix2 p q := ⟨j 0, j 1, eq_ix2 j⟩
  have ht : t.val < 10 := lt_of_lt_of_eq t.isLt N_0
  have hp : t.val * 5000 + p.val < 50000 := by have := p.isLt; omega
  have hemb : ((cfg0.win 3).blk t).view.emb (ix2 p q) = ix2 (⟨t.val * 5000 + p.val, hp⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (F := Ideal) (hblk V c t) (wblk V c t) (bblk V c t) (ix2 p q)
    = Layer.linear (harr V c) (warr V c) (barr V c) (((cfg0.win 3).blk t).view.emb (ix2 p q))
  rw [hemb, Layer.linear_apply, wblk_eq, bblk_eq]
  refine (Steps.affine_step_apply (hblk V c t) (warr V c) (barr V c) p q).trans ?_
  refine congrArg (· + barr V c (ix1 q)) (Finset.sum_congr rfl fun k _ => ?_)
  rw [hblk_apply V c t p k hp]

/-- An index of the array is in step t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Every row lies in the block of the step numbered by its quotient by 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  have ht : (i 0).val / 5000 < grid0.N := by rw [hN]; omega
  refine ⟨⟨(i 0).val / 5000, ht⟩, flush0_3 _, ?_⟩
  rw [mem_blk]
  obtain ⟨-, -, -, -, -, e5, e6⟩ := block_index ⟨(i 0).val / 5000, ht⟩
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    omega

/-- The array the region leaves is the affine map of the arrays it found. -/
theorem final (c : Dev nD) : (dat0 V c).arrAt 3 cfg0.N = Layer.linear (harr V c) (warr V c) (barr V c) :=
  (dat0 V c).arrAt_eq_of_cover 3 _ (fun t _ => flushed_eq V c t) cover

end Cert.KernelIdeal.LinearArray

end
-- ==== Proof.CombineArray.lean ====
/-
  The array the second kernel leaves after its ten grid steps is the activation of the two arrays it found:
  its three windows move together, block t at step t, so step t's entry (p, q) is the larger of zero and the sum of
  the two inputs' entries at row 5000·t + p, which is that entry of `Layer.activate`; the ten blocks cover all rows.
-/
import proofs.«143243_j37709812859405_1_alg».proof.Proof.Gen.KernelIdeal.Frame
import proofs.«143243_j37709812859405_1_alg».proof.Proof.Steps
import proofs.«143243_j37709812859405_1_alg».proof.Proof.Shared

set_option maxRecDepth 16384

noncomputable section

namespace Cert.KernelIdeal.CombineArray

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The arrays the region finds, and the blocks a step reads, at their literal types. -/
abbrev sarr (c : Dev nD) : Vec Ideal S50000x128 .f32 := V c main_v14
abbrev xarr (c : Dev nD) : Vec Ideal S50000x128 .f32 := V c main_v1
abbrev sblk (c : Dev nD) (t : Fin cfg1.N) : Vec Ideal S5000x128 .f32 := iblk1 V c 0 t
abbrev xblk (c : Dev nD) (t : Fin cfg1.N) : Vec Ideal S5000x128 .f32 := iblk1 V c 1 t

/-- The block indices over the grid: all three windows sit at block t of the rows, block 0 of the columns. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- An entry of step t's first input block is the aggregate array's entry under the output block's index. -/
theorem sblk_apply (c : Dev nD) (t : Fin cfg1.N) (j : S5000x128.Idx) :
    sblk V c t j = sarr V c (((cfg1.win 2).blk t).view.emb j) := by
  obtain ⟨e0, e1, -, -, e4, e5⟩ := block_index t
  show V c main_v14 (((cfg1.win 0).blk t).view.emb j) = V c main_v14 (((cfg1.win 2).blk t).view.emb j)
  refine congrArg (V c main_v14) (funext fun a => Fin.ext ?_)
  match a with
  | ⟨0, _⟩ => show win1_0.index t (0 : Fin 2) * 5000 + 1 * (j 0).val = win1_2.index t (0 : Fin 2) * 5000 + 1 * (j 0).val; omega
  | ⟨1, _⟩ => show win1_0.index t (1 : Fin 2) * 128 + 1 * (j 1).val = win1_2.index t (1 : Fin 2) * 128 + 1 * (j 1).val; omega

/-- An entry of step t's second input block is the node array's entry under the output block's index. -/
theorem xblk_apply (c : Dev nD) (t : Fin cfg1.N) (j : S5000x128.Idx) :
    xblk V c t j = xarr V c (((cfg1.win 2).blk t).view.emb j) := by
  obtain ⟨-, -, e2, e3, e4, e5⟩ := block_index t
  show V c main_v1 (((cfg1.win 1).blk t).view.emb j) = V c main_v1 (((cfg1.win 2).blk t).view.emb j)
  refine congrArg (V c main_v1) (funext fun a => Fin.ext ?_)
  match a with
  | ⟨0, _⟩ => show win1_1.index t (0 : Fin 2) * 5000 + 1 * (j 0).val = win1_2.index t (0 : Fin 2) * 5000 + 1 * (j 0).val; omega
  | ⟨1, _⟩ => show win1_1.index t (1 : Fin 2) * 128 + 1 * (j 1).val = win1_2.index t (1 : Fin 2) * 128 + 1 * (j 1).val; omega

/-- What step t writes back is block t of the activation of the arrays the region found. -/
theorem flushed_eq (c : Dev nD) (t : Fin cfg1.N) :
    (dat1 V c).flushed 2 t = ((cfg1.win 2).blk t).view.read (Elt Ideal) (Layer.activate (sarr V c) (xarr V c)) := by
  show (cfg1.win 2).cut (grid1.coords t) ((dat1 V c).after 2 t) = _
  rw [after1_2]
  unfold out1_2
  rw [View.canon_unit_zero zero2]
  simp only [View.ld_unit_zero (S := S5000x128) zero2]
  funext j
  show k1_pay1 (F := Ideal) (sblk V c t) (xblk V c t) j
    = Layer.activate (sarr V c) (xarr V c) (((cfg1.win 2).blk t).view.emb j)
  rw [Layer.activate_apply]
  refine (Steps.combine_step_apply (sblk V c t) (xblk V c t) j).trans ?_
  rw [sblk_apply V c t j, xblk_apply V c t j]

/-- An index of the array is in step t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v15).slice (win1_2.rect t)).set ↔ _
  rw [View.set_slice_whole, Rect.mem_set_unit]
  exact Iff.rfl

/-- Every row lies in the block of the step numbered by its quotient by 5000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  have ht : (i 0).val / 5000 < grid1.N := by rw [hN]; omega
  refine ⟨⟨(i 0).val / 5000, ht⟩, flush1_2 _, ?_⟩
  rw [mem_blk]
  obtain ⟨-, -, -, -, e4, e5⟩ := block_index ⟨(i 0).val / 5000, ht⟩
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    omega

/-- The array the region leaves is the activation of the arrays it found. -/
theorem final (c : Dev nD) : (dat1 V c).arrAt 2 cfg1.N = Layer.activate (sarr V c) (xarr V c) :=
  (dat1 V c).arrAt_eq_of_cover 2 _ (fun t _ => flushed_eq V c t) cover

end Cert.KernelIdeal.CombineArray

end
-- ==== Proof.KernelResult.lean ====
/-
  The buffer the second kernel writes, read at the end of the run, is the layer of the six inputs.
  Walking back through the run: the second region leaves the activation of the aggregate buffer and the node buffer as
  it found them; the host operations between the regions leave in the aggregate buffer the sparse aggregation of the
  node buffer as the first region left it, and do not touch the node buffer; the first region leaves in the node buffer
  the affine map of the inputs, the weight matrix transposed by the one host operation before it.
-/
import proofs.«143243_j37709812859405_1_alg».proof.Proof.LinearArray
import proofs.«143243_j37709812859405_1_alg».proof.Proof.CombineArray
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg)

/-! ## Before the first region: one transpose -/

theorem entry_h (c : Dev nD) : V1 m ρ c main_arg0 = m ((c : Thread nD τ).loc main_arg0) := by
  show StableHlo.after hostOps0 (W0 m ρ c) (Proc.devRef .tc main_arg0) = _
  after_results <;> rfl

theorem entry_b (c : Dev nD) : V1 m ρ c main_arg2 = m ((c : Thread nD τ).loc main_arg2) := by
  show StableHlo.after hostOps0 (W0 m ρ c) (Proc.devRef .tc main_arg2) = _
  after_results <;> rfl

theorem entry_wt (c : Dev nD) :
    V1 m ρ c main_v0 = transpose S128x128 [1, 0] (m ((c : Thread nD τ).loc main_arg1)) transposes_S128x128_S128x128_1_0 := by
  show StableHlo.after hostOps0 (W0 m ρ c) (Proc.devRef .tc main_v0) = _
  after_results <;> rfl

/-- The node buffer after the first region: the affine map of the inputs. -/
theorem node_eq (c : Dev nD) :
    W2 m ρ c (Proc.devRef .tc main_v1)
      = Layer.linear (m ((c : Thread nD τ).loc main_arg0))
          (transpose S128x128 [1, 0] (m ((c : Thread nD τ).loc main_arg1)) transposes_S128x128_S128x128_1_0)
          (m ((c : Thread nD τ).loc main_arg2)) := by
  refine (W2_arr m ρ c 3).trans ?_
  rw [LinearArray.final (V1 m ρ) c]
  show Layer.linear (V1 m ρ c main_arg0) (V1 m ρ c main_v0) (V1 m ρ c main_arg2) = _
  rw [entry_h, entry_b, entry_wt]

/-! ## Between the regions: the sparse aggregation, on buffers the first region does not write -/

theorem mid_ev (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results <;> rfl

theorem mid_er (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results <;> rfl

theorem mid_ec (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results <;> rfl

/-- The aggregate buffer at the second region's entry. -/
theorem aggregate_eq (c : Dev nD) :
    V3 m ρ c main_v14
      = Layer.aggregate (W2 m ρ c (Proc.devRef .tc main_v1)) (W2 m ρ c (Proc.devRef .tc main_arg3))
          (W2 m ρ c (Proc.devRef .tc main_arg4)) (W2 m ρ c (Proc.devRef .tc main_arg5)) := by
  show StableHlo.after hostOps1 (W2 m ρ c) (Proc.devRef .tc main_v14) = _
  after_results <;> rfl

/-- The node buffer at the second region's entry is as the first region left it. -/
theorem node_kept (c : Dev nD) : V3 m ρ c main_v1 = W2 m ρ c (Proc.devRef .tc main_v1) := by
  show StableHlo.after hostOps1 (W2 m ρ c) (Proc.devRef .tc main_v1) = _
  after_results <;> rfl

/-! ## The result -/

/-- The result buffer at the end of the run is the layer of the inputs. -/
theorem result_eq (c : Dev nD) :
    W4 m ρ c (Proc.devRef .tc main_v15)
      = Layer.layer (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (W4_arr m ρ c 2).trans ?_
  rw [CombineArray.final (V3 m ρ) c]
  show Layer.activate (V3 m ρ c main_v14) (V3 m ρ c main_v1) = _
  rw [aggregate_eq, node_kept, node_eq, mid_ev, mid_er, mid_ec]
  rfl

end Cert.KernelIdeal.Result

end
-- ==== Proof.lean ====
/-
  A graph-network layer over 50000 nodes of 128 features and 800000 weighted edges: y = h · Wᵀ + b, then for every
  node the sum over its incoming edges of weight · y (source row), added to the node's own row of y and cut off below
  at zero. The kernel program computes y in a first blocked kernel (ten blocks of 5000 rows, the product's operands
  narrowed to a shorter float format first, which is the identity over the extended reals), the sparse sum by the same
  host operations as the reference, and the residual sum with the cut-off in a second blocked kernel; the reference
  computes all of it with host operations. Over the extended reals both results are the one function `Layer.layer` of
  the six inputs: the two affine maps agree entry by entry (the same finite sum over the contraction index plus the
  same bias entry), the sparse sum is the same function applied to equal arrays, and the activation is entrywise.
  No law that needs finiteness is used: the inputs' finiteness is never opened.
-/
import proofs.«143243_j37709812859405_1_alg».proof.Defs
import proofs.«143243_j37709812859405_1_alg».proof.Proof.Gen.Kernel
import proofs.«143243_j37709812859405_1_alg».proof.Proof.Gen.Kernel.Frame
import proofs.«143243_j37709812859405_1_alg».proof.Proof.Gen.KernelIdeal
import proofs.«143243_j37709812859405_1_alg».proof.Proof.Gen.KernelIdeal.Frame
import proofs.«143243_j37709812859405_1_alg».proof.Proof.Gen.ReferenceIdeal
import proofs.«143243_j37709812859405_1_alg».proof.Proof.Gen.ReferenceIdeal.Run
import proofs.«143243_j37709812859405_1_alg».proof.Proof.Gen.ReferenceIdeal.Read
import proofs.«143243_j37709812859405_1_alg».proof.Proof.Gen.Pre_finite_inputs
import proofs.«143243_j37709812859405_1_alg».proof.Proof.Shared
import proofs.«143243_j37709812859405_1_alg».proof.Proof.KernelLaunch
import proofs.«143243_j37709812859405_1_alg».proof.Proof.KernelResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer of the inputs in their result buffer. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.Result.result_eq m ρ c), (h c).2⟩)
      (Cert.KernelIdeal.Launched.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v19_eq _ _ _ _ _ _).trans (Cert.Layer.reference_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
